-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x2048x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x2048x512 : Shape := ⟨3, ![8, 2048, 512]⟩
abbrev S512x512 : Shape := ⟨2, ![512, 512]⟩
abbrev S512 : Shape := ⟨1, ![512]⟩
abbrev S1x512 : Shape := ⟨2, ![1, 512]⟩
abbrev S1x2048x512 : Shape := ⟨3, ![1, 2048, 512]⟩
abbrev S2048x512 : Shape := ⟨2, ![2048, 512]⟩
abbrev S1x256x512 : Shape := ⟨3, ![1, 256, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S1x2048x512, .f32⟩
  | .local _ .vmem, ⟨9, _⟩ => ⟨S1x2048x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v36 : BitVec 32 := Scalar.addi c0_i32 c8_i32
  let c1_i32 : BitVec 32 := 1#32
  ⟨c0_i32, v36, c1_i32⟩
def k0_mult1 (k0_t1 : Fin k0_t1_loop.trips) : BitVec 32 :=
  let c0_i32_24 : BitVec 32 := 0#32
  let c0_i32 : BitVec 32 := 0#32
  let c1_i32 : BitVec 32 := 1#32
  let arg12 : BitVec 32 := Scf.iv c0_i32 c1_i32 k0_t1
  let c1_i32_23 : BitVec 32 := 1#32
  let v37 : BitVec 32 := Scalar.muli arg12 c1_i32_23
  let v38 : BitVec 32 := Scalar.addi c0_i32_24 v37
  let c256_i32 : BitVec 32 := 256#32
  let v39 : BitVec 32 := Scalar.muli v38 c256_i32
  v39
def k0_off1 (k0_t1 : Fin k0_t1_loop.trips) : Fin 3 → Nat :=
  let c0_25 : Index := 0#32
  let c0_i32_24 : BitVec 32 := 0#32
  let c0_i32 : BitVec 32 := 0#32
  let c1_i32 : BitVec 32 := 1#32
  let arg12 : BitVec 32 := Scf.iv c0_i32 c1_i32 k0_t1
  let c1_i32_23 : BitVec 32 := 1#32
  let v37 : BitVec 32 := Scalar.muli arg12 c1_i32_23
  let v38 : BitVec 32 := Scalar.addi c0_i32_24 v37
  let c256_i32 : BitVec 32 := 256#32
  let v39 : BitVec 32 := Scalar.muli v38 c256_i32
  let v40 : BitVec 32 := v39
  let v41 : Index := Scalar.indexCast v40
  let c0_26 : Index := 0#32
  ![0, v41.toNat, 0]
def k0_off2 (k0_t1 : Fin k0_t1_loop.trips) : Fin 2 → Nat :=
  let c0_i32_24 : BitVec 32 := 0#32
  let c0_i32 : BitVec 32 := 0#32
  let c1_i32 : BitVec 32 := 1#32
  let arg12 : BitVec 32 := Scf.iv c0_i32 c1_i32 k0_t1
  let c1_i32_23 : BitVec 32 := 1#32
  let v37 : BitVec 32 := Scalar.muli arg12 c1_i32_23
  let v38 : BitVec 32 := Scalar.addi c0_i32_24 v37
  let c256_i32 : BitVec 32 := 256#32
  let v39 : BitVec 32 := Scalar.muli v38 c256_i32
  let v40 : BitVec 32 := v39
  let v44 : Index := Scalar.indexCast v40
  let c0_27 : Index := 0#32
  ![v44.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  h_S1x256x512 : 0 < S1x256x512.numel
  shapeCasts_S1x256x512_S256x512 : S1x256x512.ShapeCasts S256x512
  h_S256x512 : 0 < S256x512.numel
  reduces_S256x2048_S256 : S256x2048.Reduces [1] S256
  shapeCasts_S256_S256x1 : S256.ShapeCasts S256x1
  broadcasts_S256x1_S256x2048 : S256x1.Broadcasts S256x2048
  broadcasts_S256x1_S256x512 : S256x1.Broadcasts S256x512
  shapeCasts_S256x512_S1x256x512 : S256x512.ShapeCasts S1x256x512
  dot_S2048x512_S512x512_S2048x512_1_0_0_1_n_n_wf : DotDims.WF S2048x512 S512x512 S2048x512 [1] [0] [0] [1] [] []
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x512.size a ≤ S1x2048x512.size a
  k0_off2_inb : ∀ k0_t1 : Fin k0_t1_loop.trips, ∀ a, (k0_off2 k0_t1) a + S256x512.size a ≤ S2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x512.size a ≤ S8x2048x512.size a
  hwx0_7 : ∀ i : grid0.Coords, EltTy.bits .f32 = 32 ∨ (Rect.block (s := S8x2048x512) S1x2048x512.size (cc0_transform_7 i) (hinb0_7 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S512x512 : Shape := ⟨2, ![512, 512]⟩
abbrev S512 : Shape := ⟨1, ![512]⟩
abbrev S1x1x512 : Shape := ⟨3, ![1, 1, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x2048x512, .f32⟩
  | .hbm, ⟨8, _⟩ => ⟨S1x1x512, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S1x1x512, .f32⟩
  | .hbm, ⟨13, _⟩ => ⟨S8x2048x512, .f32⟩
  | .hbm, ⟨14, _⟩ => ⟨S8x2048x512, .f32⟩
  | .hbm, ⟨15, _⟩ => ⟨S8x2048x512, .f32⟩
  | .hbm, ⟨16, _⟩ => ⟨S1x1x512, .f32⟩
  | .hbm, ⟨17, _⟩ => ⟨S8x2048x512, .f32⟩
  | .hbm, ⟨18, _⟩ => ⟨S8x2048x512, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x512, .f32⟩
  | .hbm, ⟨35, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Trip.lean ====
/-
  What the body's stores leave in the output block, piece by piece.

  The body first fills three scratch arrays whole (the query, key and value projections of the batch's 2048 rows),
  then runs eight trips; trip k reads rows 256·k … 256·k + 255 of the input block and of the query scratch, reads
  the key and value scratch whole, and stores ONE piece of the output block: the rectangle of those 256 rows, holding
  the body's last payload of what it read. Here the run's list of pieces is read off: every piece the run leaves is
  one of these eight.
-/
import proofs.«406913_j39444979646754_3_alg».proof.Proof.Gen.KernelIdeal.Frame
import Idealize.ShloMosaic.Lib.Pipeline.Value

set_option maxRecDepth 16384

noncomputable section

namespace Cert.KernelIdeal.Trip

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The piece trip `k` stores, from the input block `x0` and the three scratch arrays' contents: rows
    256·k … 256·k + 255 of the block, holding the last payload of those rows of `x0` and of the query scratch `Q`
    and of the whole key and value scratch `K`, `V`. -/
def tripPiece (x0 : Vec F S1x2048x512 .f32) (Q K V : Vec F S2048x512 .bf16) (k : Fin k0_t1_loop.trips) :
    View.Piece (Elt F) S1x2048x512 .f32 :=
  ⟨Rect.unit (k0_off1 k) S1x256x512.size (k0_off1_inb k),
    k0_pay2 (View.ld x0 (Rect.unit (s := S1x2048x512) (k0_off1 k) S1x256x512.size (k0_off1_inb k)))
      (View.ld Q (Rect.unit (s := S2048x512) (k0_off2 k) S256x512.size (k0_off2_inb k))) K V⟩

/-- One trip leaves exactly its piece. -/
theorem tripL_eq (𝒱 : Variants) (c : Dev nD) (bd : Option 𝒱.V) (i : grid0.Coords) (arg1 : Memref sig .tc .vmem S1x2048x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x2048x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (X_arg1 : BufTy.Contents (Elt F) arg1.view.ty) (X_arg9 : BufTy.Contents (Elt F) arg9.view.ty) (X_arg10 : BufTy.Contents (Elt F) arg10.view.ty) (X_arg11 : BufTy.Contents (Elt F) arg11.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 X_arg1 X_arg9 X_arg10 X_arg11 k
      = [tripPiece (arg1.view.read (Elt F) X_arg1) (arg9.view.read (Elt F) X_arg9) (arg10.view.read (Elt F) X_arg10)
          (arg11.view.read (Elt F) X_arg11) k] := by
  unfold tripL_k0_t1 trip_k0_t1 tripPiece
  dsimp only
  simp only [View.readAt_eq_ld, View.ld_unit_zero (S := S2048x512) hz2]

/-- Every piece of the trips before the `n`-th is some trip's piece. -/
theorem mem_pb (𝒱 : Variants) (c : Dev nD) (bd : Option 𝒱.V) (i : grid0.Coords) (arg1 : Memref sig .tc .vmem S1x2048x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x2048x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (X_arg1 : BufTy.Contents (Elt F) arg1.view.ty) (X_arg9 : BufTy.Contents (Elt F) arg9.view.ty) (X_arg10 : BufTy.Contents (Elt F) arg10.view.ty) (X_arg11 : BufTy.Contents (Elt F) arg11.view.ty) (n : ℕ) :
    ∀ p ∈ pb_k0_t1 (F := F) 𝒱 c bd i arg1 harg1 arg2 harg2 arg3 harg3 arg4 harg4 arg5 harg5 arg6 harg6 arg7 harg7 arg8 harg8 arg9 harg9 arg10 harg10 arg11 harg11 X_arg1 X_arg9 X_arg10 X_arg11 n,
      ∃ k : Fin k0_t1_loop.trips, p = tripPiece (arg1.view.read (Elt F) X_arg1) (arg9.view.read (Elt F) X_arg9)
        (arg10.view.read (Elt F) X_arg10) (arg11.view.read (Elt F) X_arg11) k := by
  induction n with
  | zero => intro p hp; rw [pb_k0_t1.eq_1] at hp; exact absurd hp List.not_mem_nil
  | succ n ih =>
    intro p hp
    rw [pb_k0_t1.eq_2] at hp
    unfold pb_k0_t1Step at hp
    split at hp
    · rename_i hn
      rcases List.mem_append.mp hp with h | h
      · rw [tripL_eq] at h
        exact ⟨⟨n, hn⟩, List.mem_singleton.mp h⟩
      · exact ih p h
    · exact ih p hp

end Cert.KernelIdeal.Trip

end
-- ==== Proof.Pieces.lean ====
/-
  The run's pieces, with the scratch arrays read back.

  When the trips start, the query scratch holds the first payload of the sixth (the query projection of the whole
  input block, stored whole), the key scratch the fourth payload and the value scratch the fifth: one whole store
  each, read back whole. So every piece the body leaves in the output block is a trip's piece over the input block
  and those three projections.
-/
import proofs.«406913_j39444979646754_3_alg».proof.Proof.Trip

set_option maxRecDepth 16384

noncomputable section

namespace Cert.KernelIdeal.Trip

open Cert.KernelIdeal Cert.KernelIdeal.Gen Idealize.ShloMosaic Idealize.ShloMosaic.TcCoe Idealize.ShloMosaic.Tactic Idealize.SL.Sem

variable {F : FTy → Type} [FloatOps F]

/-- One whole store into a scratch array, read back whole, is its payload. -/
theorem read_whole_store (M : Memref sig .tc .vmem S2048x512 .bf16) (f : M.view.ty.Contents (Elt F)) (w : S2048x512.Idx → Elt F .bf16)
    (inb : ∀ a, (![0, 0] : Fin 2 → Nat) a + S2048x512.size a ≤ S2048x512.size a) :
    M.view.read (Elt F) (M.view.writes (Elt F) f [(⟨Rect.unit ![0, 0] S2048x512.size inb, w⟩ : View.Piece (Elt F) S2048x512 .bf16)]) = w := by
  rw [View.read_writes_eq_canon _ _ _ (fun y => ⟨_, List.mem_singleton_self _, View.mem_set_unit_zero hz2 inb y⟩),
    View.canon_unit_zero hz2]

/-- Every piece the body leaves in the output block is a trip's piece over the input block and its three projections. -/
theorem run_pieces (c : Dev nD) (i : grid0.Coords) (arg1 : Memref sig .tc .vmem S1x2048x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x2048x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole)
    (x0 : Vec F S1x2048x512 .f32) (x1 : Vec F S512x512 .bf16) (x2 : Vec F S1x512 .f32) (x3 : Vec F S512x512 .bf16) (x4 : Vec F S1x512 .f32) (x5 : Vec F S512x512 .bf16) (x6 : Vec F S1x512 .f32) :
    ∀ p ∈ (kernelRun0_A c i arg1 harg1 arg2 harg2 arg3 harg3 arg4 harg4 arg5 harg5 arg6 harg6 arg7 harg7 arg8 harg8 arg9 harg9 arg10 harg10 arg11 harg11 x0 x1 x2 x3 x4 x5 x6).1,
      ∃ k : Fin k0_t1_loop.trips, p = tripPiece x0 (k0_pay1 (k0_pay6 x0 x1 x2)) (k0_pay4 x0 x3 x4) (k0_pay5 x0 x5 x6) k := by
  intro p hp
  unfold kernelRun0_A at hp
  dsimp only at hp
  obtain ⟨k, rfl⟩ := mem_pb _ _ _ _ _ _ _ _ _ _ _ _ _ _ _ _ _ _ _ _ _ _ _ _ _ _ _ _ _ _ _ p hp
  refine ⟨k, ?_⟩
  sl_unfold_run_names
  rw [harg1.read_unread, read_whole_store, read_whole_store, read_whole_store]
  simp only [View.readAt_eq_ld, harg1.read_unread, harg2.read_unread, harg3.read_unread, harg4.read_unread, harg5.read_unread,
    harg6.read_unread, harg7.read_unread, View.ld_unit_zero (S := S1x2048x512) hz3, View.ld_unit_zero (S := S512x512) hz2,
    View.ld_unit_zero (S := S1x512) hz2]

end Cert.KernelIdeal.Trip

end
-- ==== Proof.Attn.lean ====
/-
  Single-head attention without scaling, row by row, on the extended reals.

  A query row `qr` is scored against every key row (`score`: the inner products), the scores are shifted by
  their maximum and exponentiated (`wgt`), and the value rows are averaged with those weights, the query's own
  input row added back. Two arrangements of the average are named: `attnK` divides the weighted sum of the
  value rows by the sum of the weights once, after the sum; `attnR` divides each weight first and then sums.
  `lin` is one output row of a linear layer: the input row against each weight row, plus the bias.
-/
import Idealize.ShloMosaic.PureOps.Ideal

noncomputable section

namespace Cert.Attn

open Idealize.ShloMosaic

variable {κ ε δ γ : Type} [Fintype κ] [Fintype ε] [Fintype γ]

/-- One row of a linear layer: `e ↦ (∑ c, xr c · W e c) + b e`. -/
def lin (xr : γ → EReal) (W : ε → γ → EReal) (b : ε → EReal) : ε → EReal :=
  fun e => (∑ c, xr c * W e c) + b e

/-- The scores of a query row against the key rows: `j ↦ ∑ e, qr e · K j e`. -/
def score (qr : ε → EReal) (K : κ → ε → EReal) : κ → EReal :=
  fun j => ∑ e, qr e * K j e

/-- The maximum of a row of scores, from `⊥`. -/
def rowMax (s : κ → EReal) : EReal := Finset.univ.fold max ⊥ s

/-- The unnormalised softmax weights: `j ↦ exp (s j − max s)`. -/
def wgt (s : κ → EReal) : κ → EReal := fun j => Ideal.exp (s j - rowMax s)

/-- The weighted sum of the value rows divided by the sum of the weights, plus the residual row. -/
def attnK (s : κ → EReal) (V : κ → δ → EReal) (res : δ → EReal) : δ → EReal :=
  fun d => Ideal.div (∑ j, wgt s j * V j d) (∑ j, wgt s j) + res d

/-- The value rows summed with the normalised weights, plus the residual row. -/
def attnR (s : κ → EReal) (V : κ → δ → EReal) (res : δ → EReal) : δ → EReal :=
  fun d => (∑ j, Ideal.div (wgt s j) (∑ j', wgt s j') * V j d) + res d

/-- An extended real that is a real number. -/
def IsReal (y : EReal) : Prop := ∃ r : ℝ, y = (r : EReal)

end Cert.Attn

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.LibDotNT.lean ====
/-
  A matrix product against a transposed right operand, read at an index, at the ideal values.

  For dimension numbers that contract the left operand's axis 1 with the right operand's axis 1 and keep the
  left's axis 0 and the right's axis 0, with no batch axis — an `M × K` by `N × K` product, `l · rᵀ` —, the result
  at `(a, b)` is `∑ k, l (a, k) · r (b, k)` over `k : Fin K`: for the kernel's matrix unit accumulating into a zero
  vector and for the host's `dot_general` alike. The library states both as a sum over the contraction shape's
  indices at the operand indices `lhsIdx` / `rhsIdx`; here those are read off, coordinate by coordinate, and the
  sum is re-indexed by the contraction shape's one coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} (D : DotDims ⟨2, ![M, K]⟩ ⟨2, ![N, K]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the result's column. -/
theorem rhs_row (hlb : D.lhsBatch = []) (hrb : D.rhsBatch = []) (hln : D.lhsNonContracting = [0]) (hrn : D.rhsNonContracting = [0])
    (j : (⟨2, ![M, N]⟩ : Shape).Idx) (k : D.contr.Idx) :
    (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column is the contraction coordinate. -/
theorem rhs_col (hrc : D.rhsContracting = [1]) (j : (⟨2, ![M, N]⟩ : Shape).Idx) (k : D.contr.Idx) :
    (D.rhsIdx j k 1).val = (k ⟨0, by rw [D.rank_contr, ← D.length_contracting, hrc]; exact Nat.one_pos⟩).val :=
  D.rhsIdx_val_of_single hrc j k

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and row `b` of the right. -/
theorem sum_nt (hlc : D.lhsContracting = [1]) (hrc : D.rhsContracting = [1]) (hln : D.lhsNonContracting = [0])
    (hrn : D.rhsNonContracting = [0]) (hlb : D.lhsBatch = []) (hrb : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 b k := by
    funext x; refine Fin.ext ?_
    match x with
    | ⟨0, _⟩ => exact rhs_row D hlb hrb hln hrn _ _
    | ⟨1, _⟩ => exact (rhs_col D hrc _ _).trans hk
  rw [e1, e2]

/-- The kernel's matrix product into a zero accumulator, read at `(a, b)`. -/
theorem matmul_nt_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  show FloatOps.matmul D prec l r (constant ⟨2, ![M, N]⟩ .f32 0x00000000#32) (ix2 a b) = _
  rw [Ideal.matmul_constant_zero_apply]
  exact sum_nt D hlc hrc hln hrn hlb hrb l r a b

/-- The host's product read at `(a, b)`. -/
theorem dotGeneral_nt_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (a : Fin M) (b : Fin N) :
    Host.dotGeneral D prec l r (ix2 a b) = ∑ k : Fin K, l (ix2 a k) * r (ix2 b k) := by
  show FloatOps.dotGeneral D prec .single l r (ix2 a b) = _
  rw [Ideal.dotGeneral_apply]
  exact sum_nt D hlc hrc hln hrn hlb hrb l r a b

end Cert.LibDotNT

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.LibRowMax.lean ====
/-
  A row-wise maximum on the host, read at an index, at the ideal values.

  A one-operand reduce with a maximum body over axis 1 of an `m × n` array, started from the word of −∞, is at row `r`
  the fold of the binary maximum of the extended reals over the row's `n` entries, started from `⊥`.
-/
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

/-- The f32 word of −∞ is the bottom of the extended reals. -/
theorem ofBits_neg_inf_f32 : Ideal.ofBits .f32 0xFF800000#32 = (⊥ : EReal) := by
  simp [Ideal.ofBits, Ideal.ieee]

/-- The reduced index `r` with column `k` put back is (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- From −∞ the host's reduce with a maximum body along the rows, at row `r`, is the fold of `max` from `⊥` over the row. -/
theorem hostReduce_max_row {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = (Finset.univ : Finset (Fin n)).fold max (⊥ : EReal) (fun J => x (ix2 r J)) := by
  rw [Host.reduce_eq_fold_single FloatOps.maximumf x _ h' h hu]
  have hf : (x ∘ h.lift (ix1 r)) = fun k : Fin n => x (ix2 r k) := funext fun k => congrArg x (lift_row h r k)
  have hi : (constant (⟨0, ![]⟩ : Shape) .f32 0xFF800000#32 : FVec Ideal ⟨0, ![]⟩ .f32) (Shape.Idx.first hu) = (⊥ : EReal) :=
    ofBits_neg_inf_f32
  rw [hi]
  exact congrArg (fun f => Finset.fold max (⊥ : EReal) f (Finset.univ : Finset (Fin n))) hf

/-- info: 'Cert.LibRowMax.hostReduce_max_row' depends on axioms: [propext, Classical.choice, Quot.sound] -/
#guard_msgs in #print axioms hostReduce_max_row

end Cert.LibRowMax

end
-- ==== Proof.Payload.lean ====
/-
  The idealized kernel body's arithmetic, read at an index, on the extended reals.

  The three projections are each (the input block viewed as a 2048 × 512 matrix) times (a 512 × 512 weight matrix,
  contracted over its first axis) plus (a bias row laid down every row); the format changes and same-shape casts on
  the way are the identity. The attention tile is, at local row p: the scores of query row p against the 2048 key
  rows, their maximum from −∞, the exponentials of the shifted scores, the weighted sum of the value rows divided by
  the sum of the weights, and the input row added back.
-/
import proofs.«406913_j39444979646754_3_alg».proof.Proof.Gen.KernelIdeal.Skeleton
import proofs.«406913_j39444979646754_3_alg».proof.Proof.Attn
import proofs.«406913_j39444979646754_3_alg».proof.Proof.LibDot
import proofs.«406913_j39444979646754_3_alg».proof.Proof.LibDotNT
import proofs.«406913_j39444979646754_3_alg».proof.Proof.LibColumn
import proofs.«406913_j39444979646754_3_alg».proof.Proof.LibRowMax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Attn

/-! ## The projections -/

/-- The input block with its unit batch axis dropped reads, at (r, c), the block at (0, r, c): the format change is
    the identity. -/
private theorem pay3_apply (v0 : Vec Ideal S1x2048x512 .f32) (r : Fin 2048) (c : Fin 512) :
    k0_pay3 (F := Ideal) v0 (ix2 r c) = v0 (ix3 (0 : Fin 1) r c) := by
  unfold k0_pay3
  exact shapeCast_1ab_ab_apply v0 _ r c

/-- One projection before its last format change: the product of the input rows with the weight matrix, contracted
    over the weight's first axis, plus the bias row. -/
private theorem proj_apply (v0 : Vec Ideal S1x2048x512 .f32) (w : FVec Ideal S512x512 .bf16) (b : FVec Ideal S1x512 .f32)
    (r : Fin 2048) (e : Fin 512) :
    addf (matmul dot_S2048x512_S512x512_S2048x512_1_0_0_1_n_n none (k0_pay3 (F := Ideal) v0)
          (shapeCast S512x512 w shapeCasts_S512x512_S512x512) (constant (F := Ideal) S2048x512 .f32 0x00000000#32))
        (broadcastTo S2048x512 (shapeCast S1x512 b shapeCasts_S1x512_S1x512) broadcasts_S1x512_S2048x512) (ix2 r e)
      = lin (fun c : Fin 512 => v0 (ix3 (0 : Fin 1) r c)) (fun e c : Fin 512 => w (ix2 c e))
          (fun e : Fin 512 => b (ix2 (0 : Fin 1) e)) e := by
  rw [addf_apply, shapeCast_self, shapeCast_self, broadcastTo_1b_ab_apply,
    Cert.LibDot.matmul_plain_apply dot_S2048x512_S512x512_S2048x512_1_0_0_1_n_n rfl rfl rfl rfl rfl rfl]
  unfold lin
  refine congrArg (· + b (ix2 (0 : Fin 1) e)) (Finset.sum_congr rfl fun c _ => ?_)
  rw [pay3_apply]

theorem pay4_apply (v0 : Vec Ideal S1x2048x512 .f32) (v3 : Vec Ideal S512x512 .bf16) (v6 : Vec Ideal S1x512 .f32) (r : Fin 2048) (e : Fin 512) :
    k0_pay4 (F := Ideal) v0 v3 v6 (ix2 r e)
      = lin (fun c : Fin 512 => v0 (ix3 (0 : Fin 1) r c)) (fun e c : Fin 512 => v3 (ix2 c e)) (fun e : Fin 512 => v6 (ix2 (0 : Fin 1) e)) e := by
  unfold k0_pay4
  rw [shapeCast_self]
  exact proj_apply v0 v3 v6 r e

theorem pay5_apply (v0 : Vec Ideal S1x2048x512 .f32) (v14 : Vec Ideal S512x512 .bf16) (v17 : Vec Ideal S1x512 .f32) (r : Fin 2048) (e : Fin 512) :
    k0_pay5 (F := Ideal) v0 v14 v17 (ix2 r e)
      = lin (fun c : Fin 512 => v0 (ix3 (0 : Fin 1) r c)) (fun e c : Fin 512 => v14 (ix2 c e)) (fun e : Fin 512 => v17 (ix2 (0 : Fin 1) e)) e := by
  unfold k0_pay5
  rw [shapeCast_self]
  exact proj_apply v0 v14 v17 r e

theorem pay16_apply (v0 : Vec Ideal S1x2048x512 .f32) (v25 : Vec Ideal S512x512 .bf16) (v28 : Vec Ideal S1x512 .f32) (r : Fin 2048) (e : Fin 512) :
    k0_pay1 (F := Ideal) (k0_pay6 (F := Ideal) v0 v25 v28) (ix2 r e)
      = lin (fun c : Fin 512 => v0 (ix3 (0 : Fin 1) r c)) (fun e c : Fin 512 => v25 (ix2 c e)) (fun e : Fin 512 => v28 (ix2 (0 : Fin 1) e)) e := by
  unfold k0_pay1 k0_pay6
  rw [shapeCast_self]
  exact proj_apply v0 v25 v28 r e

/-! ## The attention tile -/

/-- The row maximum from −∞ of a 256 × 2048 matrix, at row p. -/
private theorem rowmax_apply (s : FVec Ideal S256x2048 .f32) (p : Fin 256) :
    multiReduction (F := Ideal) .maximumf [1] S256 s 0xFF800000#32 reduces_S256x2048_S256 (.inl rfl) rfl (ix1 p)
      = rowMax (fun j : Fin 2048 => s (ix2 p j)) := by
  refine (Ideal.multiReduction_maximumf_single s _ reduces_S256x2048_S256 _ _ (ix1 p)).trans ?_
  have hf : (s ∘ reduces_S256x2048_S256.lift (ix1 p)) = fun k : Fin 2048 => s (ix2 p k) :=
    funext fun k => congrArg s (Cert.LibRowMax.lift_row reduces_S256x2048_S256 p k)
  have hi : FloatOps.ofBits (F := Ideal) .f32 0xFF800000#32 = (⊥ : EReal) := Cert.LibRowMax.ofBits_neg_inf_f32
  rw [hi]
  exact congrArg (fun f => Finset.fold max (⊥ : EReal) f (Finset.univ : Finset (Fin 2048))) hf

/-- The row sum of a 256 × 2048 matrix, at row p. -/
private theorem rowsum_apply (x : FVec Ideal S256x2048 .f32) (p : Fin 256) :
    multiReduction (F := Ideal) .add [1] S256 x 0x00000000#32 reduces_S256x2048_S256 (.inl rfl) rfl (ix1 p)
      = ∑ j : Fin 2048, x (ix2 p j) := by
  refine (Ideal.multiReduction_add_single x _ reduces_S256x2048_S256 _ _ (ix1 p)).trans ?_
  exact Finset.sum_congr rfl fun k _ => congrArg x (Cert.LibRowMax.lift_row reduces_S256x2048_S256 p k)

/-- The unnormalised weight at (p, j): the exponential of the score shifted by its row's maximum. -/
private theorem weight_apply (s : FVec Ideal S256x2048 .f32) (p : Fin 256) (j : Fin 2048) :
    exp (subf s (broadcastTo S256x2048 (shapeCast S256x1
        (multiReduction (F := Ideal) .maximumf [1] S256 s 0xFF800000#32 reduces_S256x2048_S256 (.inl rfl) rfl)
        shapeCasts_S256_S256x1) broadcasts_S256x1_S256x2048)) (ix2 p j)
      = wgt (fun j : Fin 2048 => s (ix2 p j)) j := by
  show FloatOps.exp (subf s _ (ix2 p j)) = _
  rw [subf_apply, Cert.LibColumn.column_of_vector_apply, rowmax_apply]
  rfl

/-- The attention tile at local row p and column d, over vectors typed by their formats. -/
private theorem tile_apply (v42 : FVec Ideal S1x256x512 .f32) (v45 : FVec Ideal S256x512 .bf16) (v46 v56 : FVec Ideal S2048x512 .bf16)
    (p : Fin 256) (d : Fin 512) :
    k0_pay2 (F := Ideal) v42 v45 v46 v56 (ix3 (0 : Fin 1) p d)
      = attnK (score (fun e : Fin 512 => v45 (ix2 p e)) (fun (j : Fin 2048) (e : Fin 512) => v46 (ix2 j e)))
          (fun (j : Fin 2048) (d : Fin 512) => v56 (ix2 j d)) (fun d : Fin 512 => v42 (ix3 (0 : Fin 1) p d)) d := by
  have hs : (fun j : Fin 2048 => (matmul dot_S256x512_S2048x512_S256x2048_1_1_0_0_n_n none v45 v46
        (constant (F := Ideal) S256x2048 .f32 0x00000000#32) : FVec Ideal S256x2048 .f32) (ix2 p j))
      = score (fun e : Fin 512 => v45 (ix2 p e)) (fun (j : Fin 2048) (e : Fin 512) => v46 (ix2 j e)) :=
    funext fun j => Cert.LibDotNT.matmul_nt_apply dot_S256x512_S2048x512_S256x2048_1_1_0_0_n_n rfl rfl rfl rfl rfl rfl none v45 v46 p j
  unfold k0_pay2
  refine (shapeCast_ab_1ab_apply _ _ (0 : Fin 1) p d).trans ?_
  rw [addf_apply, divf_apply, shapeCast_1ab_ab_apply, Cert.LibColumn.column_of_vector_apply, rowsum_apply,
    Cert.LibDot.matmul_plain_apply dot_S256x2048_S2048x512_S256x512_1_0_0_1_n_n rfl rfl rfl rfl rfl rfl]
  show _ = Ideal.div (∑ j : Fin 2048, wgt (score (fun e : Fin 512 => v45 (ix2 p e)) (fun (j : Fin 2048) (e : Fin 512) => v46 (ix2 j e))) j * v56 (ix2 j d))
      (∑ j : Fin 2048, wgt (score (fun e : Fin 512 => v45 (ix2 p e)) (fun (j : Fin 2048) (e : Fin 512) => v46 (ix2 j e))) j) + v42 (ix3 (0 : Fin 1) p d)
  refine congrArg (· + v42 (ix3 (0 : Fin 1) p d)) (congrArg₂ Ideal.div
    (Finset.sum_congr rfl fun j _ => congrArg (· * v56 (ix2 j d)) ?_) (Finset.sum_congr rfl fun j _ => ?_))
  · exact (weight_apply _ p j).trans (congrArg (fun f => wgt f j) hs)
  · exact (weight_apply _ p j).trans (congrArg (fun f => wgt f j) hs)

theorem pay2_apply (v42 : Vec Ideal S1x256x512 .f32) (v45 : Vec Ideal S256x512 .bf16) (v46 v56 : Vec Ideal S2048x512 .bf16) (p : Fin 256) (d : Fin 512) :
    k0_pay2 (F := Ideal) v42 v45 v46 v56 (ix3 (0 : Fin 1) p d)
      = attnK (score (fun e : Fin 512 => v45 (ix2 p e)) (fun (j : Fin 2048) (e : Fin 512) => v46 (ix2 j e)))
          (fun (j : Fin 2048) (d : Fin 512) => v56 (ix2 j d)) (fun d : Fin 512 => v42 (ix3 (0 : Fin 1) p d)) d :=
  tile_apply v42 v45 v46 v56 p d

end Cert.KernelIdeal.Payload

end
-- ==== Proof.Block.lean ====
/-
  What the body leaves in the output block, as one function of the seven input blocks.

  At block index (0, r, d): the attention average of row r — the query row is row r of the input block through the
  first linear layer (weights already transposed, bias a [1, 512] row), the key and value rows are all 2048 rows of the
  block through the second and third — divided after the sum over the keys, plus the block's own entry (0, r, d).
  Each trip's piece restricts this one function to its 256 rows, the eight pieces cover the block, so the block the
  body leaves is this function.
-/
import proofs.«406913_j39444979646754_3_alg».proof.Proof.Pieces
import proofs.«406913_j39444979646754_3_alg».proof.Proof.Payload
import proofs.«406913_j39444979646754_3_alg».proof.Proof.Attn
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx Cert.Attn Cert.KernelIdeal.Trip Cert.KernelIdeal.Payload

/-- Row r of the input block. -/
def brow (x0 : Vec Ideal S1x2048x512 .f32) (r : Fin 2048) : Fin 512 → EReal := fun c => x0 (ix3 (0 : Fin 1) r c)
/-- A transposed weight block by (output feature, input feature). -/
def wT (w : Vec Ideal S512x512 .bf16) : Fin 512 → Fin 512 → EReal := fun e c => w (ix2 c e)
/-- A [1, 512] bias block by output feature. -/
def b2 (b : Vec Ideal S1x512 .f32) : Fin 512 → EReal := fun e => b (ix2 (0 : Fin 1) e)

/-- The attention average of row r of the input block, at column d, dividing after the sum over the keys. -/
def rowK (x0 : Vec Ideal S1x2048x512 .f32) (x1 : Vec Ideal S512x512 .bf16) (x2 : Vec Ideal S1x512 .f32) (x3 : Vec Ideal S512x512 .bf16)
    (x4 : Vec Ideal S1x512 .f32) (x5 : Vec Ideal S512x512 .bf16) (x6 : Vec Ideal S1x512 .f32) (r : Fin 2048) (d : Fin 512) : EReal :=
  attnK (score (lin (brow x0 r) (wT x1) (b2 x2)) (fun j => lin (brow x0 j) (wT x3) (b2 x4)))
    (fun j => lin (brow x0 j) (wT x5) (b2 x6)) (brow x0 r) d

/-- The block the body leaves, index by index. -/
def blockK (x0 : Vec Ideal S1x2048x512 .f32) (x1 : Vec Ideal S512x512 .bf16) (x2 : Vec Ideal S1x512 .f32) (x3 : Vec Ideal S512x512 .bf16)
    (x4 : Vec Ideal S1x512 .f32) (x5 : Vec Ideal S512x512 .bf16) (x6 : Vec Ideal S1x512 .f32) : S1x2048x512.Idx → EReal :=
  fun y => rowK x0 x1 x2 x3 x4 x5 x6 ⟨(y 1).val, (y 1).isLt⟩ ⟨(y 2).val, (y 2).isLt⟩

theorem trips_le (k : Fin k0_t1_loop.trips) : k.val < 8 := Nat.lt_of_lt_of_le k.isLt k0_t1_abs.2.1

/-- Trip k's rectangle of the block places local (u, p, d) at (0, 256·k + p, d). -/
theorem idx_block (k : Fin k0_t1_loop.trips) (p : Fin 256) (d : Fin 512) (hr : 256 * k.val + p.val < 2048) :
    (Rect.unit (s := S1x2048x512) (k0_off1 k) S1x256x512.size (k0_off1_inb k)).idx (ix3 (0 : Fin 1) p d)
      = ix3 (0 : Fin 1) (⟨256 * k.val + p.val, hr⟩ : Fin 2048) d := by
  funext a; apply Fin.ext
  have e := k0_off1_eq k
  match a with
  | ⟨0, _⟩ => show (k0_off1 k) 0 + 1 * 0 = 0; rw [e]; rfl
  | ⟨1, _⟩ => show (k0_off1 k) 1 + 1 * p.val = 256 * k.val + p.val; rw [e]; show 256 * k.val + 1 * p.val = _; omega
  | ⟨2, _⟩ => show (k0_off1 k) 2 + 1 * d.val = d.val; rw [e]; show 0 + 1 * d.val = _; omega

/-- Trip k's rectangle of the query scratch places local (p, e) at (256·k + p, e). -/
theorem idx_scratch (k : Fin k0_t1_loop.trips) (p : Fin 256) (e : Fin 512) (hr : 256 * k.val + p.val < 2048) :
    (Rect.unit (s := S2048x512) (k0_off2 k) S256x512.size (k0_off2_inb k)).idx (ix2 p e)
      = ix2 (⟨256 * k.val + p.val, hr⟩ : Fin 2048) e := by
  funext a; apply Fin.ext
  have h := k0_off2_eq k
  match a with
  | ⟨0, _⟩ => show (k0_off2 k) 0 + 1 * p.val = 256 * k.val + p.val; rw [h]; show 256 * k.val + 1 * p.val = _; omega
  | ⟨1, _⟩ => show (k0_off2 k) 1 + 1 * e.val = e.val; rw [h]; show 0 + 1 * e.val = _; omega

/-- Trip k's payload at local (0, p, d) is the row average of row 256·k + p at column d. -/
theorem piece_at (x0 : Vec Ideal S1x2048x512 .f32) (x1 : Vec Ideal S512x512 .bf16) (x2 : Vec Ideal S1x512 .f32) (x3 : Vec Ideal S512x512 .bf16)
    (x4 : Vec Ideal S1x512 .f32) (x5 : Vec Ideal S512x512 .bf16) (x6 : Vec Ideal S1x512 .f32)
    (k : Fin k0_t1_loop.trips) (p : Fin 256) (d : Fin 512) (hr : 256 * k.val + p.val < 2048) :
    k0_pay2 (F := Ideal) (View.ld x0 (Rect.unit (s := S1x2048x512) (k0_off1 k) S1x256x512.size (k0_off1_inb k)))
        (View.ld (k0_pay1 (F := Ideal) (k0_pay6 (F := Ideal) x0 x1 x2)) (Rect.unit (s := S2048x512) (k0_off2 k) S256x512.size (k0_off2_inb k)))
        (k0_pay4 (F := Ideal) x0 x3 x4) (k0_pay5 (F := Ideal) x0 x5 x6) (ix3 (0 : Fin 1) p d)
      = rowK x0 x1 x2 x3 x4 x5 x6 ⟨256 * k.val + p.val, hr⟩ d := by
  refine (pay2_apply _ _ _ _ p d).trans ?_
  unfold rowK
  have hq : (fun e : Fin 512 => View.ld (Val := Elt Ideal) (e' := .bf16) (k0_pay1 (F := Ideal) (k0_pay6 (F := Ideal) x0 x1 x2))
        (Rect.unit (s := S2048x512) (k0_off2 k) S256x512.size (k0_off2_inb k)) (ix2 p e))
      = lin (brow x0 ⟨256 * k.val + p.val, hr⟩) (wT x1) (b2 x2) := by
    funext e
    show k0_pay1 (F := Ideal) (k0_pay6 (F := Ideal) x0 x1 x2) ((Rect.unit (s := S2048x512) (k0_off2 k) S256x512.size (k0_off2_inb k)).idx (ix2 p e)) = _
    rw [idx_scratch k p e hr]
    exact pay16_apply x0 x1 x2 _ e
  have hk : (fun (j : Fin 2048) (e : Fin 512) => k0_pay4 (F := Ideal) x0 x3 x4 (ix2 j e))
      = fun j => lin (brow x0 j) (wT x3) (b2 x4) := by
    funext j e; exact pay4_apply x0 x3 x4 j e
  have hv : (fun (j : Fin 2048) (d : Fin 512) => k0_pay5 (F := Ideal) x0 x5 x6 (ix2 j d))
      = fun j => lin (brow x0 j) (wT x5) (b2 x6) := by
    funext j d; exact pay5_apply x0 x5 x6 j d
  have hx : (fun d : Fin 512 => View.ld (Val := Elt Ideal) (e' := .f32) x0 (Rect.unit (s := S1x2048x512) (k0_off1 k) S1x256x512.size (k0_off1_inb k)) (ix3 (0 : Fin 1) p d))
      = brow x0 ⟨256 * k.val + p.val, hr⟩ := by
    funext d'
    show x0 ((Rect.unit (s := S1x2048x512) (k0_off1 k) S1x256x512.size (k0_off1_inb k)).idx (ix3 (0 : Fin 1) p d')) = _
    rw [idx_block k p d' hr]
    rfl
  rw [hq, hk, hv, hx]

/-- Each trip's piece restricts the block function to its rectangle. -/
theorem tripPiece_agrees (x0 : Vec Ideal S1x2048x512 .f32) (x1 : Vec Ideal S512x512 .bf16) (x2 : Vec Ideal S1x512 .f32) (x3 : Vec Ideal S512x512 .bf16)
    (x4 : Vec Ideal S1x512 .f32) (x5 : Vec Ideal S512x512 .bf16) (x6 : Vec Ideal S1x512 .f32) (k : Fin k0_t1_loop.trips)
    (x : (tripPiece (F := Ideal) x0 (k0_pay1 (k0_pay6 x0 x1 x2)) (k0_pay4 x0 x3 x4) (k0_pay5 x0 x5 x6) k).1.shape.Idx) :
    (tripPiece (F := Ideal) x0 (k0_pay1 (k0_pay6 x0 x1 x2)) (k0_pay4 x0 x3 x4) (k0_pay5 x0 x5 x6) k).2 x
      = blockK x0 x1 x2 x3 x4 x5 x6 ((tripPiece (F := Ideal) x0 (k0_pay1 (k0_pay6 x0 x1 x2)) (k0_pay4 x0 x3 x4) (k0_pay5 x0 x5 x6) k).1.emb x) := by
  have hk := trips_le k
  have hp : (x 1).val < 256 := (x 1).isLt
  have hd : (x 2).val < 512 := (x 2).isLt
  have hr : 256 * k.val + (x 1).val < 2048 := by omega
  have hx : x = ix3 (0 : Fin 1) (⟨(x 1).val, hp⟩ : Fin 256) (⟨(x 2).val, hd⟩ : Fin 512) := by
    funext a; apply Fin.ext
    match a with
    | ⟨0, _⟩ => have h0 : (x 0).val < 1 := (x 0).isLt; show (x 0).val = 0; omega
    | ⟨1, _⟩ => rfl
    | ⟨2, _⟩ => rfl
  have hpay := piece_at x0 x1 x2 x3 x4 x5 x6 k ⟨(x 1).val, hp⟩ ⟨(x 2).val, hd⟩ hr
  have hidx := idx_block k ⟨(x 1).val, hp⟩ ⟨(x 2).val, hd⟩ hr
  show k0_pay2 (F := Ideal) _ _ _ _ x = blockK x0 x1 x2 x3 x4 x5 x6 ((Rect.unit (s := S1x2048x512) (k0_off1 k) S1x256x512.size (k0_off1_inb k)).idx x)
  rw [hx, hpay, hidx]
  rfl

/-- The block the body leaves is the block function. -/
theorem out_eq (c : Dev nD) (i : grid0.Coords) (arg1 : Memref sig .tc .vmem S1x2048x512 .f32) (harg1 : arg1.IsWhole) (arg2 : Memref sig .tc .vmem S512x512 .bf16) (harg2 : arg2.IsWhole) (arg3 : Memref sig .tc .vmem S1x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x2048x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole)
    (x0 : Vec Ideal S1x2048x512 .f32) (x1 : Vec Ideal S512x512 .bf16) (x2 : Vec Ideal S1x512 .f32) (x3 : Vec Ideal S512x512 .bf16) (x4 : Vec Ideal S1x512 .f32) (x5 : Vec Ideal S512x512 .bf16) (x6 : Vec Ideal S1x512 .f32) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = blockK x0 x1 x2 x3 x4 x5 x6 := by
  funext y
  unfold out0_A_7
  refine View.read_writes_apply_of_pieces VO0_7 VO0_7.junk (blockK x0 x1 x2 x3 x4 x5 x6) _ (fun p hp x => ?_) y
    (cover0_A_7 c i arg1 harg1 arg2 harg2 arg3 harg3 arg4 harg4 arg5 harg5 arg6 harg6 arg7 harg7 arg8 harg8 arg9 harg9 arg10 harg10 arg11 harg11 x0 x1 x2 x3 x4 x5 x6 y)
  obtain ⟨k, rfl⟩ := run_pieces c i arg1 harg1 arg2 harg2 arg3 harg3 arg4 harg4 arg5 harg5 arg6 harg6 arg7 harg7 arg8 harg8 arg9 harg9 arg10 harg10 arg11 harg11 x0 x1 x2 x3 x4 x5 x6 p hp
  exact tripPiece_agrees x0 x1 x2 x3 x4 x5 x6 k x

end Cert.KernelIdeal.Block

end
-- ==== Proof.AttnSpec.lean ====
/-
  The whole computation at one result index (b, r, d), as a function of the seven argument arrays: the query
  row is row r of batch b through the first linear layer, the key and value rows are all the rows of batch b
  through the second and third, the residual is row r of batch b itself. `specK` divides after the sum over
  the keys, `specR` before it.
-/
import proofs.«406913_j39444979646754_3_alg».proof.Proof.Attn
import Idealize.ShloMosaic.Lib.ValueIdx

noncomputable section

namespace Cert.Attn

open Idealize.ShloMosaic Idealize.ShloMosaic.ValueIdx

/-- Row r of batch b of the input. -/
def xrow (x : FVec Ideal ⟨3, ![8, 2048, 512]⟩ .f32) (b : Fin 8) (r : Fin 2048) : Fin 512 → EReal := fun c => x (ix3 b r c)
/-- A weight matrix by (output feature, input feature). -/
def wmat (W : FVec Ideal ⟨2, ![512, 512]⟩ .f32) : Fin 512 → Fin 512 → EReal := fun e c => W (ix2 e c)
/-- A bias vector by output feature. -/
def bvec (b : FVec Ideal ⟨1, ![512]⟩ .f32) : Fin 512 → EReal := fun e => b (ix1 e)

/-- The scores of query row r of batch b against that batch's key rows. -/
def scores (x : FVec Ideal ⟨3, ![8, 2048, 512]⟩ .f32) (Wq : FVec Ideal ⟨2, ![512, 512]⟩ .f32) (bq : FVec Ideal ⟨1, ![512]⟩ .f32)
    (Wk : FVec Ideal ⟨2, ![512, 512]⟩ .f32) (bk : FVec Ideal ⟨1, ![512]⟩ .f32) (b : Fin 8) (r : Fin 2048) : Fin 2048 → EReal :=
  score (lin (xrow x b r) (wmat Wq) (bvec bq)) (fun j => lin (xrow x b j) (wmat Wk) (bvec bk))

/-- The value rows of batch b. -/
def values (x : FVec Ideal ⟨3, ![8, 2048, 512]⟩ .f32) (Wv : FVec Ideal ⟨2, ![512, 512]⟩ .f32) (bv : FVec Ideal ⟨1, ![512]⟩ .f32)
    (b : Fin 8) : Fin 2048 → Fin 512 → EReal :=
  fun j => lin (xrow x b j) (wmat Wv) (bvec bv)

/-- The result at (b, r, d), dividing after the sum over the keys. -/
def specK (x : FVec Ideal ⟨3, ![8, 2048, 512]⟩ .f32) (Wq : FVec Ideal ⟨2, ![512, 512]⟩ .f32) (bq : FVec Ideal ⟨1, ![512]⟩ .f32)
    (Wk : FVec Ideal ⟨2, ![512, 512]⟩ .f32) (bk : FVec Ideal ⟨1, ![512]⟩ .f32) (Wv : FVec Ideal ⟨2, ![512, 512]⟩ .f32)
    (bv : FVec Ideal ⟨1, ![512]⟩ .f32) (b : Fin 8) (r : Fin 2048) (d : Fin 512) : EReal :=
  attnK (scores x Wq bq Wk bk b r) (values x Wv bv b) (xrow x b r) d

/-- The result at (b, r, d), dividing each weight before the sum over the keys. -/
def specR (x : FVec Ideal ⟨3, ![8, 2048, 512]⟩ .f32) (Wq : FVec Ideal ⟨2, ![512, 512]⟩ .f32) (bq : FVec Ideal ⟨1, ![512]⟩ .f32)
    (Wk : FVec Ideal ⟨2, ![512, 512]⟩ .f32) (bk : FVec Ideal ⟨1, ![512]⟩ .f32) (Wv : FVec Ideal ⟨2, ![512, 512]⟩ .f32)
    (bv : FVec Ideal ⟨1, ![512]⟩ .f32) (b : Fin 8) (r : Fin 2048) (d : Fin 512) : EReal :=
  attnR (scores x Wq bq Wk bk b r) (values x Wv bv b) (xrow x b r) d

end Cert.Attn

end
-- ==== Proof.Final.lean ====
/-
  The result array after the run, as one function of the seven argument arrays.

  Grid point t stages batch t of the input (rows (t, ·, ·)), the three weights as the host transposed them (entry
  (c, e) of a staged weight is entry (e, c) of the argument) and the three biases as [1, 512] rows, and writes back
  block t of the result. So what point t writes back is, at block index (0, r, d), the attention average of row r of
  batch t at column d (dividing after the sum over the keys), and the eight blocks fill the result array.
-/
import proofs.«406913_j39444979646754_3_alg».proof.Proof.Block
import proofs.«406913_j39444979646754_3_alg».proof.Proof.AttnSpec
import proofs.«406913_j39444979646754_3_alg».proof.Proof.Gen.KernelIdeal.Value
import Idealize.ShloMosaic.Lib.ValueLayout
import Idealize.ShloMosaic.Lib.StableHlo.Run
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.SL.Sem Idealize.ShloMosaic.StableHlo
open Idealize.ShloMosaic.ValueIdx Cert.Attn Cert.KernelIdeal.Block
open Idealize.ShloMosaic.Pipeline (Dat)

variable (m : (ℓ : Loc nD τ sig) → Buf (Elt Ideal) ℓ) (ρ : Dev nD → PrngReg)

/-- The result array, index by index. -/
def result (c : Dev nD) : S8x2048x512.Idx → EReal := fun i =>
  specK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ⟨(i 0).val, (i 0).isLt⟩ ⟨(i 1).val, (i 1).isLt⟩ ⟨(i 2).val, (i 2).isLt⟩

/-- The printed index maps, decided over the eight grid points: the input's and the result's block index is
    (t, 0, 0), every other window's is (0, 0). -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 8 := by
  have h := t.isLt
  have hN : cfg0.N = 8 := N_0
  omega

/-! ## The host operations before the region -/

/-- A transposed weight as the region finds it: entry (c, e) is the argument's (e, c). -/
theorem V1_apply (c : Dev nD) (ci e : Fin 512) : V m c main_v1 (ix2 ci e) = (m ((c : Thread nD τ).loc main_arg1)) (ix2 e ci) := by
  have h : V m c main_v1
      = (truncf (F := Ideal) .bf16 (transpose S512x512 [1, 0] (m ((c : Thread nD τ).loc main_arg1)) Gen.transposes_S512x512_S512x512_1_0) Gen.bitsLt_bf16_f32 : FVec Ideal S512x512 .bf16) := by
    dsimp only [Gen.V, Gen.hostOps0]; after_results
  rw [h]
  exact transpose_ix2_apply _ _ ci e
theorem V3_apply (c : Dev nD) (ci e : Fin 512) : V m c main_v3 (ix2 ci e) = (m ((c : Thread nD τ).loc main_arg3)) (ix2 e ci) := by
  have h : V m c main_v3
      = (truncf (F := Ideal) .bf16 (transpose S512x512 [1, 0] (m ((c : Thread nD τ).loc main_arg3)) Gen.transposes_S512x512_S512x512_1_0) Gen.bitsLt_bf16_f32 : FVec Ideal S512x512 .bf16) := by
    dsimp only [Gen.V, Gen.hostOps0]; after_results
  rw [h]
  exact transpose_ix2_apply _ _ ci e
theorem V5_apply (c : Dev nD) (ci e : Fin 512) : V m c main_v5 (ix2 ci e) = (m ((c : Thread nD τ).loc main_arg5)) (ix2 e ci) := by
  have h : V m c main_v5
      = (truncf (F := Ideal) .bf16 (transpose S512x512 [1, 0] (m ((c : Thread nD τ).loc main_arg5)) Gen.transposes_S512x512_S512x512_1_0) Gen.bitsLt_bf16_f32 : FVec Ideal S512x512 .bf16) := by
    dsimp only [Gen.V, Gen.hostOps0]; after_results
  rw [h]
  exact transpose_ix2_apply _ _ ci e

/-- A bias as the region finds it, a [1, 512] row: entry (0, e) is the argument's e. -/
theorem V6_apply (c : Dev nD) (e : Fin 512) : V m c main_v6 (ix2 (0 : Fin 1) e) = (m ((c : Thread nD τ).loc main_arg2)) (ix1 e) := by
  have h : (V m c main_v6 : S1x512.Idx → EReal) = shapeCast S1x512 (m ((c : Thread nD τ).loc main_arg2)) Gen.shapeCasts_S512_S1x512 := by
    dsimp only [Gen.V, Gen.hostOps0]; after_results; rfl
  rw [h]
  exact shapeCast_a_1a_apply _ _ 0 e
theorem V7_apply (c : Dev nD) (e : Fin 512) : V m c main_v7 (ix2 (0 : Fin 1) e) = (m ((c : Thread nD τ).loc main_arg4)) (ix1 e) := by
  have h : (V m c main_v7 : S1x512.Idx → EReal) = shapeCast S1x512 (m ((c : Thread nD τ).loc main_arg4)) Gen.shapeCasts_S512_S1x512 := by
    dsimp only [Gen.V, Gen.hostOps0]; after_results; rfl
  rw [h]
  exact shapeCast_a_1a_apply _ _ 0 e
theorem V8_apply (c : Dev nD) (e : Fin 512) : V m c main_v8 (ix2 (0 : Fin 1) e) = (m ((c : Thread nD τ).loc main_arg6)) (ix1 e) := by
  have h : (V m c main_v8 : S1x512.Idx → EReal) = shapeCast S1x512 (m ((c : Thread nD τ).loc main_arg6)) Gen.shapeCasts_S512_S1x512 := by
    dsimp only [Gen.V, Gen.hostOps0]; after_results; rfl
  rw [h]
  exact shapeCast_a_1a_apply _ _ 0 e

/-! ## The staged blocks at a grid point -/

/-- Row r of the staged input block at point t is row r of batch t. -/
theorem brow_eq (c : Dev nD) (t : Fin cfg0.N) (r : Fin 2048) :
    brow (iblk m c 0 t) r = xrow (m ((c : Thread nD τ).loc main_arg0)) ⟨t.val, t_lt t⟩ r := by
  obtain ⟨e0, e1, e2, -⟩ := idx_facts t
  funext cc
  unfold brow xrow iblk
  show V m c main_arg0 (((cfg0.win 0).blk t).view.emb (ix3 (0 : Fin 1) r cc)) = (m ((c : Thread nD τ).loc main_arg0)) (ix3 (⟨t.val, t_lt t⟩ : Fin 8) r cc)
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 512 + 1 * cc.val = cc.val; omega

theorem wT1_eq (c : Dev nD) (t : Fin cfg0.N) : wT (iblk m c 1 t) = wmat (m ((c : Thread nD τ).loc main_arg1)) := by
  obtain ⟨-, -, -, -, -, -, e0, e1, -⟩ := idx_facts t
  funext e cc
  unfold wT wmat iblk
  show V m c main_v1 (((cfg0.win 1).blk t).view.emb (ix2 cc e)) = (m ((c : Thread nD τ).loc main_arg1)) (ix2 e cc)
  rw [← V1_apply m c cc e]
  refine congrArg _ (funext fun a => Fin.ext ?_)
  match a with
  | ⟨0, _⟩ => show win0_1.index t (0 : Fin 2) * 512 + 1 * cc.val = cc.val; omega
  | ⟨1, _⟩ => show win0_1.index t (1 : Fin 2) * 512 + 1 * e.val = e.val; omega
theorem wT3_eq (c : Dev nD) (t : Fin cfg0.N) : wT (iblk m c 3 t) = wmat (m ((c : Thread nD τ).loc main_arg3)) := by
  obtain ⟨-, -, -, -, -, -, -, -, -, -, e0, e1, -⟩ := idx_facts t
  funext e cc
  unfold wT wmat iblk
  show V m c main_v3 (((cfg0.win 3).blk t).view.emb (ix2 cc e)) = (m ((c : Thread nD τ).loc main_arg3)) (ix2 e cc)
  rw [← V3_apply m c cc e]
  refine congrArg _ (funext fun a => Fin.ext ?_)
  match a with
  | ⟨0, _⟩ => show win0_3.index t (0 : Fin 2) * 512 + 1 * cc.val = cc.val; omega
  | ⟨1, _⟩ => show win0_3.index t (1 : Fin 2) * 512 + 1 * e.val = e.val; omega
theorem wT5_eq (c : Dev nD) (t : Fin cfg0.N) : wT (iblk m c 5 t) = wmat (m ((c : Thread nD τ).loc main_arg5)) := by
  obtain ⟨-, -, -, -, -, -, -, -, -, -, -, -, -, -, e0, e1, -⟩ := idx_facts t
  funext e cc
  unfold wT wmat iblk
  show V m c main_v5 (((cfg0.win 5).blk t).view.emb (ix2 cc e)) = (m ((c : Thread nD τ).loc main_arg5)) (ix2 e cc)
  rw [← V5_apply m c cc e]
  refine congrArg _ (funext fun a => Fin.ext ?_)
  match a with
  | ⟨0, _⟩ => show win0_5.index t (0 : Fin 2) * 512 + 1 * cc.val = cc.val; omega
  | ⟨1, _⟩ => show win0_5.index t (1 : Fin 2) * 512 + 1 * e.val = e.val; omega

theorem b2_2_eq (c : Dev nD) (t : Fin cfg0.N) : b2 (iblk m c 2 t) = bvec (m ((c : Thread nD τ).loc main_arg2)) := by
  obtain ⟨-, -, -, -, -, -, -, -, e0, e1, -⟩ := idx_facts t
  funext e
  unfold b2 bvec iblk
  show V m c main_v6 (((cfg0.win 2).blk t).view.emb (ix2 (0 : Fin 1) e)) = (m ((c : Thread nD τ).loc main_arg2)) (ix1 e)
  rw [← V6_apply m c e]
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * e.val = e.val; omega
theorem b2_4_eq (c : Dev nD) (t : Fin cfg0.N) : b2 (iblk m c 4 t) = bvec (m ((c : Thread nD τ).loc main_arg4)) := by
  obtain ⟨-, -, -, -, -, -, -, -, -, -, -, -, e0, e1, -⟩ := idx_facts t
  funext e
  unfold b2 bvec iblk
  show V m c main_v7 (((cfg0.win 4).blk t).view.emb (ix2 (0 : Fin 1) e)) = (m ((c : Thread nD τ).loc main_arg4)) (ix1 e)
  rw [← V7_apply m c e]
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * e.val = e.val; omega
theorem b2_6_eq (c : Dev nD) (t : Fin cfg0.N) : b2 (iblk m c 6 t) = bvec (m ((c : Thread nD τ).loc main_arg6)) := by
  obtain ⟨-, -, -, -, -, -, -, -, -, -, -, -, -, -, -, -, e0, e1⟩ := idx_facts t
  funext e
  unfold b2 bvec iblk
  show V m c main_v8 (((cfg0.win 6).blk t).view.emb (ix2 (0 : Fin 1) e)) = (m ((c : Thread nD τ).loc main_arg6)) (ix1 e)
  rw [← V8_apply m c e]
  refine congrArg _ (funext fun a => Fin.ext ?_)
  match a with
  | ⟨0, _⟩ => show win0_6.index t (0 : Fin 2) * 1 + 1 * 0 = 0; omega
  | ⟨1, _⟩ => show win0_6.index t (1 : Fin 2) * 512 + 1 * e.val = e.val; omega

/-- The row average over the staged blocks at point t is the specification at batch t. -/
theorem row_eq (c : Dev nD) (t : Fin cfg0.N) (r : Fin 2048) (d : Fin 512) :
    rowK (iblk m c 0 t) (iblk m c 1 t) (iblk m c 2 t) (iblk m c 3 t) (iblk m c 4 t) (iblk m c 5 t) (iblk m c 6 t) r d
      = specK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val, t_lt t⟩ r d := by
  unfold rowK specK scores values
  rw [wT1_eq m c t, wT3_eq m c t, wT5_eq m c t, b2_2_eq m c t, b2_4_eq m c t, b2_6_eq m c t, brow_eq m c t r]
  simp only [brow_eq m c t]

/-! ## The blocks written back, and the array -/

/-- What point t writes back is block t of the result. -/
theorem flushed_eq (c : Dev nD) (t : Fin cfg0.N) :
    (dats m 0 c).flushed 7 t = ((cfg0.win 7).blk t).view.read (Elt Ideal) (result m c) := by
  rw [Cert.KernelIdeal.Value.flushed7_A, Block.out_eq]
  obtain ⟨-, -, -, e0, e1, e2, -⟩ := idx_facts t
  funext j
  show blockK (iblk m c 0 t) (iblk m c 1 t) (iblk m c 2 t) (iblk m c 3 t) (iblk m c 4 t) (iblk m c 5 t) (iblk m c 6 t) j
    = result m c (((cfg0.win 7).blk t).view.emb j)
  have hj0 : (j 0).val < 1 := (j 0).isLt
  have c0 : ((((cfg0.win 7).blk t).view.emb j) 0).val = t.val := by
    show win0_7.index t (0 : Fin 3) * 1 + 1 * (j 0).val = t.val; omega
  have c1 : ((((cfg0.win 7).blk t).view.emb j) 1).val = (j 1).val := by
    show win0_7.index t (1 : Fin 3) * 2048 + 1 * (j 1).val = (j 1).val; omega
  have c2 : ((((cfg0.win 7).blk t).view.emb j) 2).val = (j 2).val := by
    show win0_7.index t (2 : Fin 3) * 512 + 1 * (j 2).val = (j 2).val; omega
  unfold blockK result
  rw [row_eq m c t]
  congr 1 <;> exact Fin.ext (by first | exact c0.symm | exact c1.symm | exact c2.symm)

/-- An index of the result is in point t's block iff each coordinate is in the block's range on its axis. -/
theorem mem_blk (t : Fin cfg0.N) (i : S8x2048x512.Idx) :
    i ∈ ((cfg0.win 7).blk t).view.set ↔ ∀ a : Fin 3, win0_7.index t a * S1x2048x512.size a ≤ (i a).val
      ∧ (i a).val < win0_7.index t a * S1x2048x512.size a + S1x2048x512.size a := by
  show i ∈ ((View.whole main_v9).slice (win0_7.rect t)).set ↔ _
  rw [View.set_slice_whole, Rect.mem_set_unit]
  exact Iff.rfl

/-- Every index of the result lies in the block of the grid point its batch coordinate names. -/
theorem cover (i : S8x2048x512.Idx) :
    ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 512 := (i 2).isLt
  have hN : cfg0.N = 8 := N_0
  have hlt : (i 0).val < cfg0.N := by omega
  obtain ⟨t, ht⟩ : ∃ t : Fin cfg0.N, t.val = (i 0).val := ⟨⟨(i 0).val, hlt⟩, rfl⟩
  obtain ⟨-, -, -, e0, e1, e2, -⟩ := idx_facts t
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 512 ≤ (i 2).val ∧ (i 2).val < win0_7.index t (2 : Fin 3) * 512 + 512; omega

/-- The result array after the run. -/
theorem final (c : Dev nD) : (dats m 0 c).arrAt 7 cfg0.N = result m c :=
  (dats m 0 c).arrAt_eq_of_cover 7 (result m c) (fun t _ => flushed_eq m c t) fun i => cover i

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Final

end
-- ==== Proof.RefRead.lean ====
/-
  The reference program read at one result index (b, r, d).

  The reference is three linear layers (query, key, value), the scores of every query row against every key row of
  its batch, a softmax over the keys (the scores shifted by their row maximum, exponentiated, and divided by the
  row's sum), the product of those weights with the value rows, and the input added back. Read bottom-up at explicit
  coordinates, each stage is a term of the specification: the three layers are `lin` of a row of the input, the
  scores are `scores`, the row maximum (a fold of `max` from `⊥`, taken once more against `⊥`) is `rowMax`, the
  exponentials are `wgt`, and the result is `attnR`, the arrangement that divides each weight before the sum over
  the keys.
-/
import proofs.«406913_j39444979646754_3_alg».proof.Proof.Gen.ReferenceIdeal.Read
import proofs.«406913_j39444979646754_3_alg».proof.Proof.AttnSpec
import Idealize.ShloMosaic.PureOps.Reduce
import Idealize.ShloMosaic.PureOps.Ideal.Laws
import Idealize.ShloMosaic.Lib.ValueIdx

noncomputable section

namespace Cert.RefRead

open Cert.ReferenceIdeal Cert.ReferenceIdeal.Read Idealize.ShloMosaic Idealize.ShloMosaic.ValueIdx Cert.Attn

section Stages

variable (x0 : (⟨S8x2048x512, .f32⟩ : BufTy).Contents (Elt Ideal)) (x1 : (⟨S512x512, .f32⟩ : BufTy).Contents (Elt Ideal))
  (x2 : (⟨S512, .f32⟩ : BufTy).Contents (Elt Ideal)) (x3 : (⟨S512x512, .f32⟩ : BufTy).Contents (Elt Ideal))
  (x4 : (⟨S512, .f32⟩ : BufTy).Contents (Elt Ideal)) (x5 : (⟨S512x512, .f32⟩ : BufTy).Contents (Elt Ideal))
  (x6 : (⟨S512, .f32⟩ : BufTy).Contents (Elt Ideal))

/-! ### The three linear layers -/

/-- The query layer at (b, r, e): row r of batch b against weight row e, plus the bias. -/
theorem v3_apply (b : Fin 8) (r : Fin 2048) (e : Fin 512) :
    val_main_v3 (F := Ideal) x0 x1 x2 (ix3 b r e) = lin (xrow x0 b r) (wmat x1) (bvec x2) e := by
  rw [val_main_v3_apply, val_main_v0_apply, val_main_v2_apply, val_main_v1_apply, Ideal.addf_def]
  have hl : ∀ k : Fin 512, lidx_main_v0 (ix3 b r e) k = ix3 b r k := fun k => funext fun a => Fin.ext (by
    match a with | ⟨0, _⟩ => rfl | ⟨1, _⟩ => rfl | ⟨2, _⟩ => rfl)
  have hr : ∀ k : Fin 512, ridx_main_v0 (ix3 b r e) k = ix2 e k := fun k => funext fun a => Fin.ext (by
    match a with | ⟨0, _⟩ => rfl | ⟨1, _⟩ => rfl)
  have hb : idx_main_v1 (idx_main_v2 (ix3 b r e)) = ix1 e := funext fun a => Fin.ext (by
    match a with | ⟨0, _⟩ => rfl)
  rw [hb]
  refine congrArg (· + x2 (ix1 e)) (Finset.sum_congr rfl fun k _ => ?_)
  rw [hl, hr]
  rfl

/-- The key layer at (b, j, e). -/
theorem v7_apply (b : Fin 8) (j : Fin 2048) (e : Fin 512) :
    val_main_v7 (F := Ideal) x0 x3 x4 (ix3 b j e) = lin (xrow x0 b j) (wmat x3) (bvec x4) e := by
  rw [val_main_v7_apply, val_main_v4_apply, val_main_v6_apply, val_main_v5_apply, Ideal.addf_def]
  have hl : ∀ k : Fin 512, lidx_main_v4 (ix3 b j e) k = ix3 b j k := fun k => funext fun a => Fin.ext (by
    match a with | ⟨0, _⟩ => rfl | ⟨1, _⟩ => rfl | ⟨2, _⟩ => rfl)
  have hr : ∀ k : Fin 512, ridx_main_v4 (ix3 b j e) k = ix2 e k := fun k => funext fun a => Fin.ext (by
    match a with | ⟨0, _⟩ => rfl | ⟨1, _⟩ => rfl)
  have hb : idx_main_v5 (idx_main_v6 (ix3 b j e)) = ix1 e := funext fun a => Fin.ext (by
    match a with | ⟨0, _⟩ => rfl)
  rw [hb]
  refine congrArg (· + x4 (ix1 e)) (Finset.sum_congr rfl fun k _ => ?_)
  rw [hl, hr]
  rfl

/-- The value layer at (b, j, d). -/
theorem v11_apply (b : Fin 8) (j : Fin 2048) (d : Fin 512) :
    val_main_v11 (F := Ideal) x0 x5 x6 (ix3 b j d) = values x0 x5 x6 b j d := by
  rw [val_main_v11_apply, val_main_v8_apply, val_main_v10_apply, val_main_v9_apply, Ideal.addf_def]
  have hl : ∀ k : Fin 512, lidx_main_v8 (ix3 b j d) k = ix3 b j k := fun k => funext fun a => Fin.ext (by
    match a with | ⟨0, _⟩ => rfl | ⟨1, _⟩ => rfl | ⟨2, _⟩ => rfl)
  have hr : ∀ k : Fin 512, ridx_main_v8 (ix3 b j d) k = ix2 d k := fun k => funext fun a => Fin.ext (by
    match a with | ⟨0, _⟩ => rfl | ⟨1, _⟩ => rfl)
  have hb : idx_main_v9 (idx_main_v10 (ix3 b j d)) = ix1 d := funext fun a => Fin.ext (by
    match a with | ⟨0, _⟩ => rfl)
  rw [hb]
  refine congrArg (· + x6 (ix1 d)) (Finset.sum_congr rfl fun k _ => ?_)
  rw [hl, hr]
  rfl

/-! ### The scores -/

/-- The score of query row r against key row j of batch b. -/
theorem v12_apply (b : Fin 8) (r j : Fin 2048) :
    val_main_v12 (F := Ideal) x0 x1 x2 x3 x4 (ix3 b r j) = scores x0 x1 x2 x3 x4 b r j := by
  rw [val_main_v12_apply]
  show _ = ∑ e : Fin 512, lin (xrow x0 b r) (wmat x1) (bvec x2) e * lin (xrow x0 b j) (wmat x3) (bvec x4) e
  have hl : ∀ k : Fin 512, lidx_main_v12 (ix3 b r j) k = ix3 b r k := fun k => funext fun a => Fin.ext (by
    match a with | ⟨0, _⟩ => rfl | ⟨1, _⟩ => rfl | ⟨2, _⟩ => rfl)
  have hr : ∀ k : Fin 512, ridx_main_v12 (ix3 b r j) k = ix3 b j k := fun k => funext fun a => Fin.ext (by
    match a with | ⟨0, _⟩ => rfl | ⟨1, _⟩ => rfl | ⟨2, _⟩ => rfl)
  refine Finset.sum_congr rfl fun k _ => ?_
  rw [hl, hr, v3_apply, v7_apply]

/-! ### The row maximum -/

/-- The word `0xFF800000` is `-∞`. -/
theorem negInf_eq_bot : Ideal.ofBits .f32 0xFF800000#32 = (⊥ : EReal) := by
  simp [Ideal.ofBits, Ideal.ieee]

/-- The maximum over the keys of the scores of query row r of batch b, folded from `-∞`. -/
theorem v13_apply (b : Fin 8) (r : Fin 2048) :
    val_main_v13 (F := Ideal) x0 x1 x2 x3 x4 (ix2 b r) = rowMax (scores x0 x1 x2 x3 x4 b r) := by
  have h : S8x2048x2048.Reduces [2] S8x2048 := by decide
  have hf : (fun k : Fin 2048 => val_main_v12 (F := Ideal) x0 x1 x2 x3 x4 (h.lift (ix2 b r) k))
      = scores x0 x1 x2 x3 x4 b r := funext fun k => by
    have hl : h.lift (ix2 b r) k = ix3 b r k := funext fun a => Fin.ext (by
      match a with | ⟨0, _⟩ => rfl | ⟨1, _⟩ => rfl | ⟨2, _⟩ => rfl)
    rw [hl, v12_apply]
  unfold val_main_v13
  refine (Host.reduce_eq_fold_single (FloatOps.maximumf (F := Ideal) (φ := .f32)) _ _ _ h _ (ix2 b r)).trans ?_
  show (Finset.univ : Finset (Fin 2048)).fold max (Ideal.ofBits .f32 0xFF800000#32)
      (fun k : Fin 2048 => val_main_v12 (F := Ideal) x0 x1 x2 x3 x4 (h.lift (ix2 b r) k)) = _
  rw [hf, negInf_eq_bot]
  rfl

/-- The maximum once more against `-∞`: unchanged. -/
theorem v15_apply (b : Fin 8) (r : Fin 2048) :
    val_main_v15 (F := Ideal) x0 x1 x2 x3 x4 (ix2 b r) = rowMax (scores x0 x1 x2 x3 x4 b r) := by
  rw [val_main_v15_apply, val_main_v14_apply, val_main_cst_0_apply, v13_apply, Ideal.maximumf_def, Ideal.ofBits_def,
    negInf_eq_bot]
  exact max_bot_left _

/-- The maximum broadcast along the keys. -/
theorem v17_apply (b : Fin 8) (r j : Fin 2048) :
    val_main_v17 (F := Ideal) x0 x1 x2 x3 x4 (ix3 b r j) = rowMax (scores x0 x1 x2 x3 x4 b r) := by
  rw [val_main_v17_apply, val_main_v16_apply]
  have hb : idx_main_v16 (idx_main_v17 (ix3 b r j)) = ix2 b r := funext fun a => Fin.ext (by
    match a with | ⟨0, _⟩ => rfl | ⟨1, _⟩ => rfl)
  rw [hb, v15_apply]

/-! ### The softmax weights -/

/-- The exponential of the shifted score. -/
theorem v19_apply (b : Fin 8) (r j : Fin 2048) :
    val_main_v19 (F := Ideal) x0 x1 x2 x3 x4 (ix3 b r j) = wgt (scores x0 x1 x2 x3 x4 b r) j := by
  rw [val_main_v19_apply, val_main_v18_apply, v12_apply, v17_apply, Ideal.subf_def, Ideal.hostUnary_exp_def]
  rfl

/-- The sum of the weights over the keys (the sum starts from the zero word). -/
theorem v20_apply (b : Fin 8) (r : Fin 2048) :
    val_main_v20 (F := Ideal) x0 x1 x2 x3 x4 (ix2 b r) = ∑ j : Fin 2048, wgt (scores x0 x1 x2 x3 x4 b r) j := by
  rw [val_main_v20_apply, val_main_cst_1_apply, Ideal.ofBits_def, Ideal.ofBits_zero_f32, zero_add]
  have hl : ∀ k : Fin 2048, idx_main_v20 (ix2 b r) k = ix3 b r k := fun k => funext fun a => Fin.ext (by
    match a with | ⟨0, _⟩ => rfl | ⟨1, _⟩ => rfl | ⟨2, _⟩ => rfl)
  refine Finset.sum_congr rfl fun k _ => ?_
  rw [hl, v19_apply]

/-- The sum broadcast along the keys. -/
theorem v22_apply (b : Fin 8) (r j : Fin 2048) :
    val_main_v22 (F := Ideal) x0 x1 x2 x3 x4 (ix3 b r j) = ∑ j' : Fin 2048, wgt (scores x0 x1 x2 x3 x4 b r) j' := by
  rw [val_main_v22_apply, val_main_v21_apply]
  have hb : idx_main_v21 (idx_main_v22 (ix3 b r j)) = ix2 b r := funext fun a => Fin.ext (by
    match a with | ⟨0, _⟩ => rfl | ⟨1, _⟩ => rfl)
  rw [hb, v20_apply]

/-- The normalised weight. -/
theorem v23_apply (b : Fin 8) (r j : Fin 2048) :
    val_main_v23 (F := Ideal) x0 x1 x2 x3 x4 (ix3 b r j)
      = Ideal.div (wgt (scores x0 x1 x2 x3 x4 b r) j) (∑ j' : Fin 2048, wgt (scores x0 x1 x2 x3 x4 b r) j') := by
  rw [val_main_v23_apply, v19_apply, v22_apply, Ideal.hostDivf_def]

/-! ### The weighted sum of the value rows -/

/-- The value rows summed with the normalised weights. -/
theorem v24_apply (b : Fin 8) (r : Fin 2048) (d : Fin 512) :
    val_main_v24 (F := Ideal) x0 x1 x2 x3 x4 x5 x6 (ix3 b r d)
      = ∑ j : Fin 2048, Ideal.div (wgt (scores x0 x1 x2 x3 x4 b r) j) (∑ j' : Fin 2048, wgt (scores x0 x1 x2 x3 x4 b r) j')
          * values x0 x5 x6 b j d := by
  rw [val_main_v24_apply]
  have hl : ∀ k : Fin 2048, lidx_main_v24 (ix3 b r d) k = ix3 b r k := fun k => funext fun a => Fin.ext (by
    match a with | ⟨0, _⟩ => rfl | ⟨1, _⟩ => rfl | ⟨2, _⟩ => rfl)
  have hr : ∀ k : Fin 2048, ridx_main_v24 (ix3 b r d) k = ix3 b k d := fun k => funext fun a => Fin.ext (by
    match a with | ⟨0, _⟩ => rfl | ⟨1, _⟩ => rfl | ⟨2, _⟩ => rfl)
  refine Finset.sum_congr rfl fun k _ => ?_
  rw [hl, hr, v23_apply, v11_apply]

end Stages

/-- The reference at (b, r, d) is the specification that divides each weight before the sum over the keys. -/
theorem ref_apply (x0 : (⟨S8x2048x512, .f32⟩ : BufTy).Contents (Elt Ideal)) (x1 : (⟨S512x512, .f32⟩ : BufTy).Contents (Elt Ideal)) (x2 : (⟨S512, .f32⟩ : BufTy).Contents (Elt Ideal))
    (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (b : Fin 8) (r : Fin 2048) (d : Fin 512) :
    val_main_v25 (F := Ideal) x0 x1 x2 x3 x4 x5 x6 (ix3 b r d) = specR x0 x1 x2 x3 x4 x5 x6 b r d := by
  rw [val_main_v25_apply, v24_apply, Ideal.addf_def]
  rfl

end Cert.RefRead

end
-- ==== Proof.Finite.lean ====
/-
  From the precondition "every float input is finite" to "every entry of every argument is a real number".

  The precondition compares, for each of the seven arguments, the absolute value of every entry with the word of
  +∞, takes the conjunction of those comparisons over all entries, and then the conjunction of the seven
  results. On the extended reals the absolute value is `max y (-y)`, and `max y (-y) < ⊤` holds exactly when
  `y` is neither `⊥` nor `⊤`, that is, when `y` is a real number.
-/
import proofs.«406913_j39444979646754_3_alg».proof.Pre_finite_inputs
import proofs.«406913_j39444979646754_3_alg».proof.Proof.Attn
import Idealize.ShloMosaic.PureOps.Ideal.Laws
import Idealize.ShloMosaic.Lib.ValueIdx
import Idealize.ShloMosaic.Lib.ReduceAll

noncomputable section

namespace Cert.Finite

open Idealize.ShloMosaic Cert.Attn

/-- The shape of rank 0 has exactly one index. -/
private instance subsingleton_scalarIdx : Subsingleton Cert.Pre_finite_inputs.S_.Idx :=
  ⟨fun a b => funext fun d => d.elim0⟩

/-- A one-bit word made from a Boolean is 1 exactly when the Boolean is true. -/
private theorem ofBool_eq_one {b : Bool} : BitVec.ofBool b = 1#1 ↔ b = true := by cases b <;> decide

/-- The single-precision word `0x7F800000` denotes `+∞`. -/
private theorem inf_word : Ideal.ofBits .f32 0x7F800000#32 = (⊤ : EReal) := by
  simp [Ideal.ofBits, Ideal.ieee]

/-- An extended real whose absolute value `max y (-y)` is below `⊤` is a real number:
    at `⊥` the maximum is `max ⊥ ⊤ = ⊤`, at `⊤` it is `⊤`, and neither is below `⊤`. -/
private theorem isReal_of_abs_lt_top (y : EReal) (h : max y (-y) < ⊤) : IsReal y := by
  induction y using EReal.rec with
  | bot => simp at h
  | coe r => exact ⟨r, rfl⟩
  | top => simp at h

/-- One argument: if the conjunction over all entries of "the absolute value is below the broadcast `+∞`" is 1,
    then every entry is a real number. -/
private theorem real_of_all {S : Shape} (a : FVec Ideal S .f32)
    (hb : Cert.Pre_finite_inputs.S_.BroadcastsInDim S (![] : Fin 0 → Fin S.rank))
    {axes : List (Fin S.rank)} (hr : S.ReducesTo axes Cert.Pre_finite_inputs.S_)
    (hu : 0 < Cert.Pre_finite_inputs.S_.numel) (init : IVec Cert.Pre_finite_inputs.S_ 1)
    (j : Cert.Pre_finite_inputs.S_.Idx)
    (e : Host.reduce IntOp.andi
          (cmpf .olt (Host.absf a)
            (broadcastInDim S ![] hb (constant (F := Ideal) Cert.Pre_finite_inputs.S_ .f32 0x7F800000#32)))
          init hr hu j = 1#1) :
    ∀ i, IsReal (a i) := by
  intro i
  have h1 := Host.reduce_andi_all _ _ hr hu j e i
  have h2 : Ideal.cmp .olt (max (a i) (-(a i))) (Ideal.ofBits .f32 0x7F800000#32) = 1#1 := h1
  rw [inf_word] at h2
  simp only [Ideal.cmp, ofBool_eq_one, decide_eq_true_eq] at h2
  exact isReal_of_abs_lt_top (a i) h2

theorem real_of_pre [Cert.Pre_finite_inputs.Facts]
    (a0 : FVec Ideal Cert.Pre_finite_inputs.S8x2048x512 .f32) (a1 : FVec Ideal Cert.Pre_finite_inputs.S512x512 .f32) (a2 : FVec Ideal Cert.Pre_finite_inputs.S512 .f32)
    (a3 : FVec Ideal Cert.Pre_finite_inputs.S512x512 .f32) (a4 : FVec Ideal Cert.Pre_finite_inputs.S512 .f32) (a5 : FVec Ideal Cert.Pre_finite_inputs.S512x512 .f32)
    (a6 : FVec Ideal Cert.Pre_finite_inputs.S512 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) := by
  have h0 := congrFun h ValueIdx.ix0
  dsimp only [Cert.Pre_finite_inputs.fn, Cert.Pre_finite_inputs.fn_part1] at h0
  -- The seven conjunctions, nested to the left: ((((((c0 ∧ c1) ∧ c2) ∧ c3) ∧ c4) ∧ c5) ∧ c6).
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨real_of_all a0 _ _ _ _ _ c0, real_of_all a1 _ _ _ _ _ c1, real_of_all a2 _ _ _ _ _ c2,
    real_of_all a3 _ _ _ _ _ c3, real_of_all a4 _ _ _ _ _ c4, real_of_all a5 _ _ _ _ _ c5,
    real_of_all a6 _ _ _ _ _ c6⟩

end Cert.Finite

end
-- ==== Proof.AttnLaw.lean ====
/-
  The two arrangements of the softmax average agree when every score and every value entry is a real number.

  The extended reals do not distribute in general, so the algebra is done in ℝ. With real scores over a
  nonempty finite index set the row maximum is a real number m (it is above one score, hence not ⊥, and
  below ⊤ because every score is), so each weight exp (s j − m) is the coercion of a positive real w j and
  their sum is the coercion of a positive real L. Both arrangements are then coercions of real numbers,
  and in ℝ one has (∑ j, w j · v j) · (1 / L) = ∑ j, (w j · (1 / L)) · v j.
-/
import proofs.«406913_j39444979646754_3_alg».proof.Proof.AttnSpec
import Mathlib.Data.EReal.Basic
import Mathlib.Data.EReal.Operations
import Mathlib.Data.EReal.Inv
import Mathlib.Data.Finset.Fold
import Mathlib.Analysis.SpecialFunctions.Exp
import Mathlib.Algebra.BigOperators.Field
import Mathlib.Algebra.Order.BigOperators.Group.Finset

noncomputable section

namespace Cert.Attn

open Idealize.ShloMosaic Idealize.ShloMosaic.ValueIdx

/-- The sum of two real numbers is a real number. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The product of two real numbers is a real number. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of coercions is the coercion of the sum. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a t ha ih =>
    rw [Finset.sum_insert ha, Finset.sum_insert ha, ih, EReal.coe_add]

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => exact ⟨0, by simp⟩
  | insert a t ha ih =>
    rw [Finset.sum_insert ha]
    exact IsReal.add (h a (Finset.mem_insert_self a t))
      (ih (fun i hi => h i (Finset.mem_insert_of_mem hi)))

/-- A row of a linear layer with real input, weights and bias is real. -/
theorem lin_real {γ ε : Type} [Fintype γ] (xr : γ → EReal) (W : ε → γ → EReal) (b : ε → EReal)
    (hx : ∀ c, IsReal (xr c)) (hW : ∀ e c, IsReal (W e c)) (hb : ∀ e, IsReal (b e)) (e : ε) :
    IsReal (lin xr W b e) := by
  unfold lin
  exact IsReal.add (IsReal.sum _ _ (fun c _ => IsReal.mul (hx c) (hW e c))) (hb e)

/-- A score of a real query row against real key rows is real. -/
theorem score_real {κ ε : Type} [Fintype ε] (qr : ε → EReal) (K : κ → ε → EReal)
    (hq : ∀ e, IsReal (qr e)) (hK : ∀ j e, IsReal (K j e)) (j : κ) : IsReal (score qr K j) := by
  unfold score
  exact IsReal.sum _ _ (fun e _ => IsReal.mul (hq e) (hK j e))

/-- The maximum of a nonempty finite row of real scores is a real number. -/
private theorem rowMax_real {κ : Type} [Fintype κ] [Nonempty κ] (s : κ → EReal)
    (hs : ∀ j, IsReal (s j)) : IsReal (rowMax s) := by
  have hlt : rowMax s < ⊤ := by
    unfold rowMax
    refine (Finset.fold_max_lt _).mpr ⟨bot_lt_top, fun j _ => ?_⟩
    obtain ⟨x, hx⟩ := hs j
    rw [hx]
    exact EReal.coe_lt_top x
  have hgt : ⊥ < rowMax s := by
    unfold rowMax
    obtain ⟨j0⟩ := (inferInstance : Nonempty κ)
    refine (Finset.lt_fold_max _).mpr (Or.inr ⟨j0, Finset.mem_univ j0, ?_⟩)
    obtain ⟨x, hx⟩ := hs j0
    rw [hx]
    exact EReal.bot_lt_coe x
  exact ⟨(rowMax s).toReal, (EReal.coe_toReal hlt.ne hgt.ne').symm⟩

/-- Dividing the weighted sum once, after the sum, equals dividing each weight before the sum, on real
    scores and real values. -/
theorem attnK_eq_attnR {κ δ : Type} [Fintype κ] [Nonempty κ] (s : κ → EReal) (V : κ → δ → EReal)
    (res : δ → EReal) (hs : ∀ j, IsReal (s j)) (hV : ∀ j d, IsReal (V j d)) :
    attnK s V res = attnR s V res := by
  choose s' hs' using hs
  choose V' hV' using hV
  obtain ⟨m, hm⟩ := rowMax_real s (fun j => ⟨s' j, hs' j⟩)
  -- each weight is the coercion of a positive real
  have hw : ∀ j, wgt s j = ((Real.exp (s' j - m) : ℝ) : EReal) := by
    intro j
    unfold wgt
    rw [hs' j, hm, ← EReal.coe_sub, Ideal.exp_coe]
  -- their sum is the coercion of a positive real
  have hLpos : 0 < ∑ j, Real.exp (s' j - m) :=
    Finset.sum_pos (fun j _ => Real.exp_pos _) Finset.univ_nonempty
  have hL : (∑ j, wgt s j) = ((∑ j, Real.exp (s' j - m) : ℝ) : EReal) := by
    rw [← coe_sum]
    exact Finset.sum_congr rfl (fun j _ => hw j)
  -- from here on the sum of the weights is just a positive real L
  generalize (∑ j, Real.exp (s' j - m)) = L at hLpos hL
  funext d
  unfold attnK attnR
  congr 1
  rw [hL, Ideal.div_coe hLpos.ne']
  -- the weighted sum of the values is the coercion of a real
  have hN : (∑ j, wgt s j * V j d) = ((∑ j, Real.exp (s' j - m) * V' j d : ℝ) : EReal) := by
    rw [← coe_sum]
    exact Finset.sum_congr rfl (fun j _ => by rw [hw j, hV' j d, EReal.coe_mul])
  rw [hN, ← EReal.coe_mul]
  have hR : (∑ j, Ideal.div (wgt s j) (L : EReal) * V j d)
      = ((∑ j, Real.exp (s' j - m) * (1 / L) * V' j d : ℝ) : EReal) := by
    rw [← coe_sum]
    refine Finset.sum_congr rfl (fun j _ => ?_)
    rw [Ideal.div_coe hLpos.ne', hw j, hV' j d, ← EReal.coe_mul, ← EReal.coe_mul]
  rw [hR]
  congr 1
  rw [Finset.sum_mul]
  exact Finset.sum_congr rfl (fun j _ => by ring)

/-- The two arrangements of the whole computation agree at every result index, on real arguments. -/
theorem specK_eq_specR (x : FVec Ideal ⟨3, ![8, 2048, 512]⟩ .f32) (Wq : FVec Ideal ⟨2, ![512, 512]⟩ .f32)
    (bq : FVec Ideal ⟨1, ![512]⟩ .f32) (Wk : FVec Ideal ⟨2, ![512, 512]⟩ .f32) (bk : FVec Ideal ⟨1, ![512]⟩ .f32)
    (Wv : FVec Ideal ⟨2, ![512, 512]⟩ .f32) (bv : FVec Ideal ⟨1, ![512]⟩ .f32)
    (hx : ∀ i, IsReal (x i)) (hWq : ∀ i, IsReal (Wq i)) (hbq : ∀ i, IsReal (bq i))
    (hWk : ∀ i, IsReal (Wk i)) (hbk : ∀ i, IsReal (bk i))
    (hWv : ∀ i, IsReal (Wv i)) (hbv : ∀ i, IsReal (bv i)) (b : Fin 8) (r : Fin 2048) (d : Fin 512) :
    specK x Wq bq Wk bk Wv bv b r d = specR x Wq bq Wk bk Wv bv b r d := by
  unfold specK specR
  have hsc : ∀ j, IsReal (scores x Wq bq Wk bk b r j) := by
    intro j
    unfold scores
    refine score_real _ _ (fun e => ?_) (fun j' e => ?_) j
    · exact lin_real _ _ _ (fun c => hx _) (fun e' c => hWq _) (fun e' => hbq _) e
    · exact lin_real _ _ _ (fun c => hx _) (fun e' c => hWk _) (fun e' => hbk _) e
  have hvl : ∀ j d', IsReal (values x Wv bv b j d') := by
    intro j d'
    unfold values
    exact lin_real _ _ _ (fun c => hx _) (fun e' c => hWv _) (fun e' => hbv _) d'
  exact congrFun (attnK_eq_attnR _ _ _ hsc hvl) d

end Cert.Attn

end
-- ==== Proof.lean ====
/-
  The kernel and the reference compute one function of the seven arguments.

  Per batch b and query row r, both programs push the input rows through three linear layers (the kernel's weights
  transposed on the host beforehand, its format changes the identity on the extended reals), score row r against
  all 2048 key rows, subtract the row maximum, exponentiate, and average the value rows with those weights, adding
  the input row back. They differ in ONE place: the kernel divides the weighted sum of the value rows by the sum of
  the weights once, after the sum over the keys; the reference divides every weight first and sums afterwards. On
  the extended reals a quotient does not move across a sum in general; it does when every score and every value
  entry is a real number, the weights then being positive reals with a positive real sum. The precondition (every
  input finite) makes every entry of the seven arguments a real number, hence every projection and every score.

  The kernel's side is read off its frame run: each of the eight trips of the body's loop stores one piece of the
  output block, the rectangle of its 256 rows holding the row averages of those rows; the pieces cover the block and
  all restrict one function of the staged blocks, which the eight grid points' write-backs carry into the result
  array. The reference's side is its run read one operation at a time.
-/
import proofs.«406913_j39444979646754_3_alg».proof.Defs
import proofs.«406913_j39444979646754_3_alg».proof.Proof.Gen.Kernel
import proofs.«406913_j39444979646754_3_alg».proof.Proof.Gen.Kernel.Skeleton
import proofs.«406913_j39444979646754_3_alg».proof.Proof.Gen.Kernel.Loops
import proofs.«406913_j39444979646754_3_alg».proof.Proof.Gen.Kernel.Launch
import proofs.«406913_j39444979646754_3_alg».proof.Proof.Gen.Kernel.Points
import proofs.«406913_j39444979646754_3_alg».proof.Proof.Gen.Kernel.Frame
import proofs.«406913_j39444979646754_3_alg».proof.Proof.Gen.KernelIdeal
import proofs.«406913_j39444979646754_3_alg».proof.Proof.Gen.KernelIdeal.Skeleton
import proofs.«406913_j39444979646754_3_alg».proof.Proof.Gen.KernelIdeal.Loops
import proofs.«406913_j39444979646754_3_alg».proof.Proof.Gen.KernelIdeal.Launch
import proofs.«406913_j39444979646754_3_alg».proof.Proof.Gen.KernelIdeal.Points
import proofs.«406913_j39444979646754_3_alg».proof.Proof.Gen.KernelIdeal.Frame
import proofs.«406913_j39444979646754_3_alg».proof.Proof.Gen.ReferenceIdeal
import proofs.«406913_j39444979646754_3_alg».proof.Proof.Gen.Pre_finite_inputs
import proofs.«406913_j39444979646754_3_alg».proof.Proof.Gen.KernelIdeal.Value
import proofs.«406913_j39444979646754_3_alg».proof.Proof.Gen.ReferenceIdeal.Run
import proofs.«406913_j39444979646754_3_alg».proof.Proof.Gen.ReferenceIdeal.Read
import proofs.«406913_j39444979646754_3_alg».proof.Proof.Final
import proofs.«406913_j39444979646754_3_alg».proof.Proof.RefRead
import proofs.«406913_j39444979646754_3_alg».proof.Proof.Finite
import proofs.«406913_j39444979646754_3_alg».proof.Proof.AttnLaw
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at the row averages of the arguments: the kernel's dividing after the sum
    over the keys, the reference's before it, equal because the precondition makes every argument entry a real number. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  obtain ⟨a0, a1, a2, a3, a4, a5, a6⟩ := hagree c
  rw [a0, a1, a2, a3, a4, a5, a6]
  obtain ⟨f0, f1, f2, f3, f4, f5, f6⟩ := Cert.Finite.real_of_pre _ _ _ _ _ _ _ (hpre c)
  funext i
  obtain ⟨b, r, d, rfl⟩ : ∃ (b : Fin 8) (r : Fin 2048) (d : Fin 512), i = ix3 b r d :=
    ⟨⟨(i 0).val, (i 0).isLt⟩, ⟨(i 1).val, (i 1).isLt⟩, ⟨(i 2).val, (i 2).isLt⟩, by
      funext a; apply Fin.ext
      match a with
      | ⟨0, _⟩ => rfl
      | ⟨1, _⟩ => rfl
      | ⟨2, _⟩ => rfl⟩
  rw [Cert.RefRead.ref_apply]
  exact (Cert.Attn.specK_eq_specR _ _ _ _ _ _ _ f0 f1 f2 f3 f4 f5 f6 _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
